-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S256x8192 .f32 .bf16
  ∧ IdealRules.truncf_extf.Statement Cert.KernelIdeal.S256x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel

variable [Facts]

def fn {F : FTy → Type} [FloatOps F] (main_arg0 : FVec F S256x65536 .f32) (main_arg1 : FVec F S256x65536 .f32) (main_arg2 : IVec S_ 32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  main_v8
-- ==== Kernel.lean ====
abbrev S256x65536 : Shape := ⟨2, ![256, 65536]⟩
abbrev S_ : Shape := ⟨0, ![]⟩
abbrev S2x256x256 : Shape := ⟨3, ![2, 256, 256]⟩
abbrev S2x1x256 : Shape := ⟨3, ![2, 1, 256]⟩
abbrev S256x8192 : Shape := ⟨2, ![256, 8192]⟩
abbrev S1x256x256 : Shape := ⟨3, ![1, 256, 256]⟩
abbrev S1x1x256 : Shape := ⟨3, ![1, 1, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 62
  | .vmem => 10
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S_, .i32⟩
  | .hbm, ⟨3, _⟩ => ⟨S_, .f32⟩
  | .hbm, ⟨4, _⟩ => ⟨S2x256x256, .f32⟩
  | .hbm, ⟨5, _⟩ => ⟨S2x1x256, .f32⟩
  | .hbm, ⟨6, _⟩ => ⟨S2x1x256, .f32⟩
  | .hbm, ⟨7, _⟩ => ⟨S_, .f32⟩
  | .hbm, ⟨8, _⟩ => ⟨S256x256, .f32⟩
  | .hbm, ⟨9, _⟩ => ⟨S_, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .i1⟩
  | .hbm, ⟨27, _⟩ => ⟨S_, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .i1⟩
  | .hbm, ⟨34, _⟩ => ⟨S256x256, .f32⟩
  | .hbm, ⟨35, _⟩ => ⟨S_, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S1x256x256, .f32⟩
  | .local _ .vmem, ⟨5, _⟩ => ⟨S1x256x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_cst_10 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_12 : Ref sig .tc := ⟨.hbm, 52, rfl⟩
abbrev main_v30 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_cst_14 : Ref sig .tc := ⟨.hbm, 57, rfl⟩
abbrev main_v33 : Ref sig .tc := ⟨.hbm, 58, rfl⟩
abbrev main_cst_15 : Ref sig .tc := ⟨.hbm, 59, rfl⟩
abbrev main_v34 : Ref sig .tc := ⟨.hbm, 60, rfl⟩
abbrev main_v35 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  reduces_S256x8192_S256 : S256x8192.Reduces [1] S256
  shapeCasts_S256_S256x1 : S256.ShapeCasts S256x1
  transposes_S256x1_p1_0_S1x256 : S256x1.Transposes [1, 0] S1x256
  reducesTo_S2x256x256_S256x256_d0 : S2x256x256.ReducesTo [0] S256x256
  h_S_ : 0 < S_.numel
  reducesTo_S2x1x256_S1x256_d0 : S2x1x256.ReducesTo [0] S1x256
  transposes_S1x256_S256x1_1_0 : S1x256.Transposes [1, 0] S256x1
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S256_d1 : S256x256.ReducesTo [1] S256
  reducesTo_S256_S_d0 : S256.ReducesTo [0] S_
  reducesTo_S256x256_S256_d0 : S256x256.ReducesTo [0] S256
  dot_S256x8192_S256x8192_S256x256_1_1_0_0_n_n_wf : DotDims.WF S256x8192 S256x8192 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x65536.size a
  hwx0_0 : ∀ i : grid0.Coords, EltTy.bits .f32 = 32 ∨ (Rect.block (s := S256x65536) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S256x65536.size a
  hwx0_1 : ∀ i : grid0.Coords, EltTy.bits .f32 = 32 ∨ (Rect.block (s := S256x65536) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)

variable [Facts₀]

def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x65536 : Shape := ⟨2, ![256, 65536]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S65536x256 : Shape := ⟨2, ![65536, 256]⟩

abbrev nBuf : Space → Nat
  | .hbm => 63
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S_, .i32⟩
  | .hbm, ⟨3, _⟩ => ⟨S_, .f32⟩
  | .hbm, ⟨4, _⟩ => ⟨S256x65536, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x65536, .f32⟩
  | .hbm, ⟨9, _⟩ => ⟨S_, .f32⟩
  | .hbm, ⟨10, _⟩ => ⟨S256, .f32⟩
  | .hbm, ⟨11, _⟩ => ⟨S1x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S65536x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .i1⟩
  | .hbm, ⟨27, _⟩ => ⟨S_, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .i1⟩
  | .hbm, ⟨34, _⟩ => ⟨S256x256, .f32⟩
  | .hbm, ⟨35, _⟩ => ⟨S_, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call2_cst : Ref sig .tc := ⟨.hbm, 41, rfl⟩
abbrev main_call2_v0 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call3_cst : Ref sig .tc := ⟨.hbm, 53, rfl⟩
abbrev main_call3_v0 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_cst_12 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  reducesTo_S256x65536_S256_d1 : S256x65536.ReducesTo [1] S256
  h_S_ : 0 < S_.numel
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x65536_S65536x256_1_0 : S256x65536.Transposes [1, 0] S65536x256
  bcast_S_S256x256 : S_.BroadcastsInDim S256x256 (![] : Fin 0 → Fin S256x256.rank)
  reducesTo_S256x256_S256_d1 : S256x256.ReducesTo [1] S256
  reducesTo_S256_S_d0 : S256.ReducesTo [0] S_
  transposes_S256x256_S256x256_1_0 : S256x256.Transposes [1, 0] S256x256
  dot_S256x65536_S65536x256_S256x256_1_0_0_1_n_n_wf : DotDims.WF S256x65536 S65536x256 S256x256 [1] [0] [0] [1] [] []

variable [Facts₀]

def dot_S256x65536_S65536x256_S256x256_1_0_0_1_n_n : DotDims S256x65536 S65536x256 S256x256 where
  lhsContracting := [1]
  rhsContracting := [0]
  lhsNonContracting := [0]
  rhsNonContracting := [1]
  lhsBatch := []
  rhsBatch := []
  wf := dot_S256x65536_S65536x256_S256x256_1_0_0_1_n_n_wf

class Facts : Prop extends Facts₀ where

variable [Facts]
-- ==== Proof.Finite.lean ====
/-
  The precondition, decoded: every entry of the two float arguments is a real number.
-/
import proofs.«423393_j32272384262254_4_alg».proof.Defs
import proofs.«423393_j32272384262254_4_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.TcCoe Idealize.SL.Sem

/-- The rank-0 shape has exactly one index: an index is a function out of the empty set of axes. -/
theorem subsingleton_scalar_idx : Subsingleton Cert.Pre_finite_inputs.S_.Idx :=
  ⟨fun _ _ => funext fun d => d.elim0⟩

/-- The f32 pattern with an all-ones exponent field, a zero fraction and a clear sign denotes +∞. -/
theorem ofBits_inf : Ideal.ofBits .f32 0x7F800000#32 = (⊤ : EReal) := by
  simp [Ideal.ofBits, Ideal.ieee]

/-- An extended real whose absolute value max x (-x) lies strictly below +∞ is a real number:
    at ⊤ the maximum is ⊤, at ⊥ it is -⊥ = ⊤, and ⊤ < ⊤ is false. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Under the precondition every entry of both point arrays is a real number. -/
theorem of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ y, ∃ r : ℝ, m ((c.tc : Thread Cert.KernelIdeal.nD Cert.KernelIdeal.τ).loc Cert.KernelIdeal.main_arg0) y = (r : EReal))
    ∧ (∀ y, ∃ r : ℝ, m ((c.tc : Thread Cert.KernelIdeal.nD Cert.KernelIdeal.τ).loc Cert.KernelIdeal.main_arg1) y = (r : EReal)) := by
  haveI := subsingleton_scalar_idx
  -- the predicate's one result word, on this device, is 1
  have h0 := congrFun (h c) ValueIdx.ix0
  dsimp only [Cert.Pre_finite_inputs.fn] at h0
  -- it is the conjunction of the two reductions by "and", so each of them is 1
  obtain ⟨h1, h2⟩ := IntOp.andi_eq_one.1 h0
  -- a reduction by "and" over both axes that is 1 had a 1 at every index: |entry| < +∞ there
  refine ⟨fun y => ?_, fun y => ?_⟩
  · exact real_of_abs_lt_inf _ (Host.reduce_andi_all _ _ _ _ _ h1 y)
  · exact real_of_abs_lt_inf _ (Host.reduce_andi_all _ _ _ _ _ h2 y)

end Cert.Proof.Finite

end
-- ==== Proof.Pieces.lean ====
/-
  What one run of the kernel's body leaves in its three result blocks, as values.

  The body adds, into the block of inner products, the products of the two input blocks over the block's 8192
  coordinates, and into the two blocks of squared norms the input blocks' row sums of squares; at the first
  block of each half of the coordinates it stores zero blocks first. Each result block is written by one store
  that covers it (after the zero store, at a reset point), so what the block ends holding is that store's value,
  with every load reading the whole buffer it loads from.
-/
import proofs.«423393_j32272384262254_4_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that does not reset, output 2's block ends at its one covering store's value: `k0_pay5 x0 x1 xo2`. -/
theorem out_B_2 (c : Dev nD) (i : grid0.Coords) (a2 : Memref sig .tc .vmem S256x8192 .f32) (h2 : a2.IsWhole) (a3 : Memref sig .tc .vmem S256x8192 .f32) (h3 : a3.IsWhole) (a4 : Memref sig .tc .vmem S1x256x256 .f32) (h4 : a4.IsWhole) (a5 : Memref sig .tc .vmem S1x1x256 .f32) (h5 : a5.IsWhole) (a6 : Memref sig .tc .vmem S1x1x256 .f32) (h6 : a6.IsWhole) (hc : ¬cond0_0 i)
    (x0 x1 : Vec F S256x8192 .f32) (xo2 : Vec F S1x256x256 .f32) (xo3 xo4 : Vec F S1x1x256 .f32) :
    out0_B_2 c i a2 h2 a3 h3 a4 h4 a5 h5 a6 h6 hc x0 x1 xo2 xo3 xo4 = k0_pay5 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S256x8192) hz2, View.ld_unit_zero (S := S1x256x256) hz3, View.ld_unit_zero (S := S1x1x256) hz3]

/-- At a point that does not reset, output 3's block ends at its one covering store's value: `k0_pay6 x0 xo3`. -/
theorem out_B_3 (c : Dev nD) (i : grid0.Coords) (a2 : Memref sig .tc .vmem S256x8192 .f32) (h2 : a2.IsWhole) (a3 : Memref sig .tc .vmem S256x8192 .f32) (h3 : a3.IsWhole) (a4 : Memref sig .tc .vmem S1x256x256 .f32) (h4 : a4.IsWhole) (a5 : Memref sig .tc .vmem S1x1x256 .f32) (h5 : a5.IsWhole) (a6 : Memref sig .tc .vmem S1x1x256 .f32) (h6 : a6.IsWhole) (hc : ¬cond0_0 i)
    (x0 x1 : Vec F S256x8192 .f32) (xo2 : Vec F S1x256x256 .f32) (xo3 xo4 : Vec F S1x1x256 .f32) :
    out0_B_3 c i a2 h2 a3 h3 a4 h4 a5 h5 a6 h6 hc x0 x1 xo2 xo3 xo4 = k0_pay6 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S256x8192) hz2, View.ld_unit_zero (S := S1x256x256) hz3, View.ld_unit_zero (S := S1x1x256) hz3]

/-- At a point that does not reset, output 4's block ends at its one covering store's value: `k0_pay1 x1 xo4`. -/
theorem out_B_4 (c : Dev nD) (i : grid0.Coords) (a2 : Memref sig .tc .vmem S256x8192 .f32) (h2 : a2.IsWhole) (a3 : Memref sig .tc .vmem S256x8192 .f32) (h3 : a3.IsWhole) (a4 : Memref sig .tc .vmem S1x256x256 .f32) (h4 : a4.IsWhole) (a5 : Memref sig .tc .vmem S1x1x256 .f32) (h5 : a5.IsWhole) (a6 : Memref sig .tc .vmem S1x1x256 .f32) (h6 : a6.IsWhole) (hc : ¬cond0_0 i)
    (x0 x1 : Vec F S256x8192 .f32) (xo2 : Vec F S1x256x256 .f32) (xo3 xo4 : Vec F S1x1x256 .f32) :
    out0_B_4 c i a2 h2 a3 h3 a4 h4 a5 h5 a6 h6 hc x0 x1 xo2 xo3 xo4 = k0_pay1 x1 xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S256x8192) hz2, View.ld_unit_zero (S := S1x256x256) hz3, View.ld_unit_zero (S := S1x1x256) hz3]

/-- At a point that resets, output 2's block ends at the accumulating store's value over the zero block the
    reset stored first: `k0_pay5 x0 x1 (k0_pay2 (F := F))`. -/
theorem out_A_2 (c : Dev nD) (i : grid0.Coords) (a2 : Memref sig .tc .vmem S256x8192 .f32) (h2 : a2.IsWhole) (a3 : Memref sig .tc .vmem S256x8192 .f32) (h3 : a3.IsWhole) (a4 : Memref sig .tc .vmem S1x256x256 .f32) (h4 : a4.IsWhole) (a5 : Memref sig .tc .vmem S1x1x256 .f32) (h5 : a5.IsWhole) (a6 : Memref sig .tc .vmem S1x1x256 .f32) (h6 : a6.IsWhole) (hc : cond0_0 i)
    (x0 x1 : Vec F S256x8192 .f32) :
    out0_A_2 c i a2 h2 a3 h3 a4 h4 a5 h5 a6 h6 hc x0 x1 = k0_pay5 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x256x256) hz3, View.readCov_unit_zero (S := S1x256x256) _ hz3]
  simp only [View.readAt_eq_ld, h2.read_unread, h3.read_unread, h4.read_unread, h5.read_unread, h6.read_unread,
    View.ld_unit_zero (S := S256x8192) hz2, View.ld_unit_zero (S := S1x256x256) hz3, View.ld_unit_zero (S := S1x1x256) hz3]

/-- At a point that resets, output 3's block ends at the accumulating store's value over the zero block the
    reset stored first: `k0_pay6 x0 (k0_pay3 (F := F))`. -/
theorem out_A_3 (c : Dev nD) (i : grid0.Coords) (a2 : Memref sig .tc .vmem S256x8192 .f32) (h2 : a2.IsWhole) (a3 : Memref sig .tc .vmem S256x8192 .f32) (h3 : a3.IsWhole) (a4 : Memref sig .tc .vmem S1x256x256 .f32) (h4 : a4.IsWhole) (a5 : Memref sig .tc .vmem S1x1x256 .f32) (h5 : a5.IsWhole) (a6 : Memref sig .tc .vmem S1x1x256 .f32) (h6 : a6.IsWhole) (hc : cond0_0 i)
    (x0 x1 : Vec F S256x8192 .f32) :
    out0_A_3 c i a2 h2 a3 h3 a4 h4 a5 h5 a6 h6 hc x0 x1 = k0_pay6 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread,
    View.ld_unit_zero (S := S256x8192) hz2, View.ld_unit_zero (S := S1x256x256) hz3, View.ld_unit_zero (S := S1x1x256) hz3]

/-- At a point that resets, output 4's block ends at the accumulating store's value over the zero block the
    reset stored first: `k0_pay1 x1 (k0_pay4 (F := F))`. -/
theorem out_A_4 (c : Dev nD) (i : grid0.Coords) (a2 : Memref sig .tc .vmem S256x8192 .f32) (h2 : a2.IsWhole) (a3 : Memref sig .tc .vmem S256x8192 .f32) (h3 : a3.IsWhole) (a4 : Memref sig .tc .vmem S1x256x256 .f32) (h4 : a4.IsWhole) (a5 : Memref sig .tc .vmem S1x1x256 .f32) (h5 : a5.IsWhole) (a6 : Memref sig .tc .vmem S1x1x256 .f32) (h6 : a6.IsWhole) (hc : cond0_0 i)
    (x0 x1 : Vec F S256x8192 .f32) :
    out0_A_4 c i a2 h2 a3 h3 a4 h4 a5 h5 a6 h6 hc x0 x1 = k0_pay1 x1 (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread,
    View.ld_unit_zero (S := S256x8192) hz2, View.ld_unit_zero (S := S1x256x256) hz3, View.ld_unit_zero (S := S1x1x256) hz3]

end Cert.KernelIdeal.Acc

end
-- ==== Proof.Payload.lean ====
/-
  The body's three accumulating stores, read at an index over the extended reals.

  Into the block of inner products the body adds, at `(i, j)`, three sums over the block's 8192 coordinates:
  `∑ a b`, `∑ a (b - b)` and `∑ (a - a) b` (the kernel splits each factor into a rounded part and a remainder;
  over the reals the rounded part is the factor itself and the remainder `x - x`). Into the blocks of squared
  norms it adds the row sums `∑ a a` and `∑ b b`. The reset stores zero.
-/
import proofs.«423393_j32272384262254_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Acc

open Idealize.ShloMosaic Idealize.ShloMosaic.ValueIdx
open Cert.KernelIdeal Cert.KernelIdeal.Gen

/-! ### The product of two blocks, contracted over the blocks' coordinate axis -/

theorem lhs_dot_0 (i : S256x256.Idx) (q : dot_S256x8192_S256x8192_S256x256_1_1_0_0_n_n.contr.Idx) :
    (dot_S256x8192_S256x8192_S256x256_1_1_0_0_n_n.lhsIdx i q 0).val = (i 0).val := by
  unfold DotDims.lhsIdx
  rw [dif_neg (show ¬(0 : Fin S256x8192.rank) ∈ dot_S256x8192_S256x8192_S256x256_1_1_0_0_n_n.lhsBatch by decide), dif_pos (show (0 : Fin S256x8192.rank) ∈ dot_S256x8192_S256x8192_S256x256_1_1_0_0_n_n.lhsNonContracting by decide)]
  rfl
theorem lhs_dot_1 (i : S256x256.Idx) (q : dot_S256x8192_S256x8192_S256x256_1_1_0_0_n_n.contr.Idx) :
    (dot_S256x8192_S256x8192_S256x256_1_1_0_0_n_n.lhsIdx i q 1).val = (q ⟨0, by decide⟩).val :=
  dot_S256x8192_S256x8192_S256x256_1_1_0_0_n_n.lhsIdx_val_of_single rfl i q
theorem rhs_dot_0 (i : S256x256.Idx) (q : dot_S256x8192_S256x8192_S256x256_1_1_0_0_n_n.contr.Idx) :
    (dot_S256x8192_S256x8192_S256x256_1_1_0_0_n_n.rhsIdx i q 0).val = (i 1).val := by
  unfold DotDims.rhsIdx
  rw [dif_neg (show ¬(0 : Fin S256x8192.rank) ∈ dot_S256x8192_S256x8192_S256x256_1_1_0_0_n_n.rhsBatch by decide), dif_pos (show (0 : Fin S256x8192.rank) ∈ dot_S256x8192_S256x8192_S256x256_1_1_0_0_n_n.rhsNonContracting by decide)]
  rfl
theorem rhs_dot_1 (i : S256x256.Idx) (q : dot_S256x8192_S256x8192_S256x256_1_1_0_0_n_n.contr.Idx) :
    (dot_S256x8192_S256x8192_S256x256_1_1_0_0_n_n.rhsIdx i q 1).val = (q ⟨0, by decide⟩).val :=
  dot_S256x8192_S256x8192_S256x256_1_1_0_0_n_n.rhsIdx_val_of_single rfl i q

/-- The product into a zero accumulator, at `(i, j)`: row `i` of the left block times row `j` of the right block,
    summed over the 8192 coordinates. -/
theorem blockDot_apply (l r : FVec Ideal S256x8192 .bf16) (i j : Fin 256) :
    matmul dot_S256x8192_S256x8192_S256x256_1_1_0_0_n_n none l r (constant S256x256 .f32 0x00000000#32) (ix2 i j)
      = ∑ d : Fin 8192, l (ix2 i d) * r (ix2 j d) := by
  simp only [matmul]
  rw [Ideal.matmul_constant_zero_apply, ← Equiv.sum_comp (ValueIdx.contrEquiv1 dot_S256x8192_S256x8192_S256x256_1_1_0_0_n_n 8192 rfl rfl).symm]
  refine Finset.sum_congr rfl fun k _ => ?_
  have hk := ValueIdx.contrEquiv1_symm_val dot_S256x8192_S256x8192_S256x256_1_1_0_0_n_n 8192 rfl rfl k
  have el : dot_S256x8192_S256x8192_S256x256_1_1_0_0_n_n.lhsIdx (ix2 i j) ((ValueIdx.contrEquiv1 dot_S256x8192_S256x8192_S256x256_1_1_0_0_n_n 8192 rfl rfl).symm k) = ix2 i k := funext fun a => Fin.ext (by
    match a with
    | ⟨0, _⟩ => exact lhs_dot_0 _ _
    | ⟨1, _⟩ => exact (lhs_dot_1 _ _).trans hk)
  have er : dot_S256x8192_S256x8192_S256x256_1_1_0_0_n_n.rhsIdx (ix2 i j) ((ValueIdx.contrEquiv1 dot_S256x8192_S256x8192_S256x256_1_1_0_0_n_n 8192 rfl rfl).symm k) = ix2 j k := funext fun a => Fin.ext (by
    match a with
    | ⟨0, _⟩ => exact rhs_dot_0 _ _
    | ⟨1, _⟩ => exact (rhs_dot_1 _ _).trans hk)
  rw [el, er]

/-- What the body adds to the inner products at `(i, j)`, from the input blocks `a` and `b`. -/
def dotTerms (a b : Vec Ideal S256x8192 .f32) (i j : Fin 256) : EReal :=
  (∑ d : Fin 8192, a (ix2 i d) * b (ix2 j d) + ∑ d : Fin 8192, a (ix2 i d) * (b (ix2 j d) - b (ix2 j d)))
    + ∑ d : Fin 8192, (a (ix2 i d) - a (ix2 i d)) * b (ix2 j d)

/-- The accumulating store of the inner products at `(0, i, j)`: what was there plus the three sums. -/
theorem pay5_apply (a b : Vec Ideal S256x8192 .f32) (xo : Vec Ideal S1x256x256 .f32) (u : Fin 1) (i j : Fin 256) :
    k0_pay5 (F := Ideal) a b xo (ix3 u i j) = xo (ix3 0 i j) + dotTerms a b i j := by
  unfold k0_pay5
  refine (shapeCast_ab_1ab_apply _ shapeCasts_S256x256_S1x256x256 u i j).trans ?_
  refine congrArg₂ (· + ·) (shapeCast_1ab_ab_apply xo shapeCasts_S1x256x256_S256x256 i j) ?_
  exact congrArg₂ (· + ·) (congrArg₂ (· + ·) (blockDot_apply _ _ i j) (blockDot_apply _ _ i j)) (blockDot_apply _ _ i j)

/-! ### The row sums of squares -/

/-- A block's row sum of squares, laid out as a row: at `(u, i)` the sum over the 8192 coordinates of row `i`. -/
theorem rowSq_apply (a : Vec Ideal S256x8192 .f32) (u : Fin 1) (i : Fin 256) :
    transpose S1x256 [1, 0]
        (shapeCast S256x1 (multiReduction (F := Ideal) .add [1] S256 (mulf a a) 0x00000000#32 reduces_S256x8192_S256 (.inl rfl) rfl) shapeCasts_S256_S256x1)
        transposes_S256x1_p1_0_S1x256 (ix2 u i)
      = ∑ d : Fin 8192, a (ix2 i d) * a (ix2 i d) := by
  refine (transpose_ix2_apply _ transposes_S256x1_p1_0_S1x256 u i).trans ?_
  refine (shapeCast_apply _ shapeCasts_S256_S256x1 (ix2 i u) (ix1 i) (by
    have hu : u.val = 0 := by omega
    rw [Shape.rowMajor_val_one, Shape.rowMajor_val_two]
    show i.val = i.val * 1 + u.val
    omega)).trans ?_
  refine (Ideal.multiReduction_add_single (mulf a a) 0x00000000#32 reduces_S256x8192_S256 (.inl rfl) rfl (ix1 i)).trans ?_
  refine Finset.sum_congr rfl fun d _ => ?_
  have e : reduces_S256x8192_S256.lift (ix1 i) d = ix2 i d :=
    funext fun x => Fin.ext (by match x with | ⟨0, _⟩ => rfl | ⟨1, _⟩ => rfl)
  rw [e]
  rfl

/-- The accumulating store of the first points' squared norms at `(0, 0, i)`. -/
theorem pay6_apply (a : Vec Ideal S256x8192 .f32) (xo : Vec Ideal S1x1x256 .f32) (u v : Fin 1) (i : Fin 256) :
    k0_pay6 (F := Ideal) a xo (ix3 u v i) = xo (ix3 0 v i) + ∑ d : Fin 8192, a (ix2 i d) * a (ix2 i d) := by
  unfold k0_pay6
  refine (shapeCast_ab_1ab_apply _ shapeCasts_S1x256_S1x1x256 u v i).trans ?_
  exact congrArg₂ (· + ·) (shapeCast_1ab_ab_apply xo shapeCasts_S1x1x256_S1x256 v i) (rowSq_apply a v i)

/-- The accumulating store of the second points' squared norms at `(0, 0, j)`. -/
theorem pay1_apply (b : Vec Ideal S256x8192 .f32) (xo : Vec Ideal S1x1x256 .f32) (u v : Fin 1) (j : Fin 256) :
    k0_pay1 (F := Ideal) b xo (ix3 u v j) = xo (ix3 0 v j) + ∑ d : Fin 8192, b (ix2 j d) * b (ix2 j d) := by
  unfold k0_pay1
  refine (shapeCast_ab_1ab_apply _ shapeCasts_S1x256_S1x1x256 u v j).trans ?_
  exact congrArg₂ (· + ·) (shapeCast_1ab_ab_apply xo shapeCasts_S1x1x256_S1x256 v j) (rowSq_apply b v j)

/-! ### The reset -/

theorem pay2_apply (y : S1x256x256.Idx) : k0_pay2 (F := Ideal) y = 0 := by
  unfold k0_pay2
  show shapeCast S1x256x256 (broadcast S256x256 (Scalar.ofBits (F := Ideal) .f32 0x00000000#32)) shapeCasts_S256x256_S1x256x256 y = 0
  unfold shapeCast
  exact Ideal.ofBits_zero_f32

theorem pay3_apply (y : S1x1x256.Idx) : k0_pay3 (F := Ideal) y = 0 := by
  unfold k0_pay3
  show shapeCast S1x1x256 (broadcast S1x256 (Scalar.ofBits (F := Ideal) .f32 0x00000000#32)) shapeCasts_S1x256_S1x1x256 y = 0
  unfold shapeCast
  exact Ideal.ofBits_zero_f32

theorem pay4_apply (y : S1x1x256.Idx) : k0_pay4 (F := Ideal) y = 0 := by
  unfold k0_pay4
  show shapeCast S1x1x256 (broadcast S1x256 (Scalar.ofBits (F := Ideal) .f32 0x00000000#32)) shapeCasts_S1x256_S1x1x256 y = 0
  unfold shapeCast
  exact Ideal.ofBits_zero_f32

end Cert.KernelIdeal.Acc

end
-- ==== Proof.Chunks.lean ====
/-
  The arithmetic the two programs share, over the extended reals.

  Both programs compute, for 256 points `X i` and 256 points `Y j` of 65536 coordinates each, the inner
  products `∑ D, X i D * Y j D`. The reference sums over all 65536 coordinates at once; the kernel cuts the
  coordinates into eight consecutive chunks of 8192, sums each chunk, and adds the chunks' sums four at a time
  (one half of the coordinates per group of four). Addition on the extended reals is commutative and
  associative, so the two groupings agree: `dot_eq_halves`.
-/
import Idealize.ShloMosaic.Lib.ValueIdx
import Idealize.ShloMosaic.PureOps.Ideal.Laws

noncomputable section

namespace Cert.Proof.Chunks

open Idealize.ShloMosaic Idealize.ShloMosaic.ValueIdx

/-- 256 points of 65536 coordinates, as extended reals. -/
abbrev Pts : Type := (⟨2, ![256, 65536]⟩ : Shape).Idx → EReal

/-- Coordinate `d` of chunk `b`: the coordinates are cut into eight consecutive chunks of 8192. -/
def col (b : Fin 8) (d : Fin 8192) : Fin 65536 :=
  ⟨b.val * 8192 + d.val, by have := b.isLt; have := d.isLt; omega⟩

/-- A coordinate is the pair (its chunk, its place in the chunk). -/
def colEquiv : Fin 8 × Fin 8192 ≃ Fin 65536 where
  toFun p := col p.1 p.2
  invFun D := (⟨D.val / 8192, by have := D.isLt; omega⟩, ⟨D.val % 8192, by omega⟩)
  left_inv p := by
    obtain ⟨b, d⟩ := p
    have hb := b.isLt
    have hd := d.isLt
    refine Prod.ext (Fin.ext ?_) (Fin.ext ?_)
    · show (b.val * 8192 + d.val) / 8192 = b.val
      omega
    · show (b.val * 8192 + d.val) % 8192 = d.val
      omega
  right_inv D := by
    apply Fin.ext
    show D.val / 8192 * 8192 + D.val % 8192 = D.val
    omega

/-- The inner product of point `i` of `X` and point `j` of `Y` over ALL coordinates. -/
def dot (X Y : Pts) (i j : Fin 256) : EReal := ∑ D : Fin 65536, X (ix2 i D) * Y (ix2 j D)

/-- The same over the coordinates of chunk `b` only. -/
def dotChunk (X Y : Pts) (b : Fin 8) (i j : Fin 256) : EReal :=
  ∑ d : Fin 8192, X (ix2 i (col b d)) * Y (ix2 j (col b d))

/-- The sum over all coordinates is the sum over the chunks of the chunks' sums. -/
theorem dot_eq_chunks (X Y : Pts) (i j : Fin 256) : dot X Y i j = ∑ b : Fin 8, dotChunk X Y b i j := by
  unfold dot dotChunk
  rw [← Equiv.sum_comp colEquiv (fun D => X (ix2 i D) * Y (ix2 j D)), Fintype.sum_prod_type]
  rfl

/-- Chunk `k` of half `c`: half `c` of the coordinates is chunks `4c … 4c + 3`. -/
def chunkOf (c : Fin 2) (k : Fin 4) : Fin 8 := ⟨4 * c.val + k.val, by have := c.isLt; have := k.isLt; omega⟩

/-- The inner product over half `c` of the coordinates: its four chunks' sums, added. -/
def halfDot (X Y : Pts) (c : Fin 2) (i j : Fin 256) : EReal := ∑ k : Fin 4, dotChunk X Y (chunkOf c k) i j

/-- The whole inner product is the two halves', added. -/
theorem dot_eq_halves (X Y : Pts) (i j : Fin 256) : dot X Y i j = halfDot X Y 0 i j + halfDot X Y 1 i j := by
  rw [dot_eq_chunks]
  unfold halfDot
  rw [Fin.sum_univ_eight, Fin.sum_univ_four, Fin.sum_univ_four]
  simp only [add_assoc]
  rfl

/-- A real number minus itself is zero (false of the two infinities). -/
theorem sub_self_of_real {x : EReal} (h : ∃ r : ℝ, x = (r : EReal)) : x - x = 0 := by
  obtain ⟨r, rfl⟩ := h
  rw [← EReal.coe_sub, sub_self, EReal.coe_zero]

/-! ### A quantity accumulated over runs of four consecutive steps -/

/-- A quantity that RESTARTS at `g n` at every step `n` divisible by four and otherwise ADDS `g n` to what the step
    before left is, at step `n`, the sum of `g` over the steps of `n`'s run of four up to `n`. -/
theorem run_sum {f : (n : ℕ) → n < 8 → EReal} {g : ℕ → EReal}
    (h0 : ∀ (n : ℕ) (h : n < 8), n % 4 = 0 → f n h = g n)
    (hs : ∀ (n : ℕ) (h : n + 1 < 8), ¬(n + 1) % 4 = 0 → f (n + 1) h = f n (Nat.lt_of_succ_lt h) + g (n + 1)) :
    ∀ (n : ℕ) (h : n < 8), f n h = ∑ s ∈ Finset.range (n % 4 + 1), g (n - n % 4 + s)
  | 0, h => by rw [h0 0 h rfl]; simp
  | n + 1, h => by
    by_cases hz : (n + 1) % 4 = 0
    · rw [h0 _ h hz, hz]; simp
    · rw [hs n h hz, run_sum h0 hs n (Nat.lt_of_succ_lt h)]
      have e1 : (n + 1) % 4 = n % 4 + 1 := by omega
      have e2 : n + 1 - (n % 4 + 1) = n - n % 4 := by omega
      rw [e1, e2, Finset.sum_range_succ _ (n % 4 + 1)]
      congr 2
      omega

/-- The chunk of coordinates with a given number (numbers past seven are never used). -/
def chunkAt (n : ℕ) : Fin 8 := ⟨n % 8, Nat.mod_lt _ (by decide)⟩

/-- At the last step of a run of four the sum over the run is the half's inner product. -/
theorem run_eq_halfDot (X Y : Pts) (i j : Fin 256) (n : ℕ) (hn : n < 8) (h3 : n % 4 = 3) :
    ∑ s ∈ Finset.range (n % 4 + 1), dotChunk X Y (chunkAt (n - n % 4 + s)) i j
      = halfDot X Y ⟨n / 4, by omega⟩ i j := by
  rw [h3]
  unfold halfDot
  rw [Finset.sum_range (fun s => dotChunk X Y (chunkAt (n - 3 + s)) i j)]
  refine Finset.sum_congr rfl fun k _ => ?_
  have hk := k.isLt
  have e : chunkAt (n - 3 + k.val) = chunkOf ⟨n / 4, by omega⟩ k := Fin.ext (by
    show (n - 3 + k.val) % 8 = 4 * (n / 4) + k.val
    omega)
  rw [e]

end Cert.Proof.Chunks

end
-- ==== Proof.Accum.lean ====
/-
  The three result arrays of the region, as functions of the two arrays of points.

  The grid's eight points are the eight chunks of coordinates in order; points 0–3 are the first half, 4–7 the
  second. At the first point of a half the body stores zero and adds the point's chunk; at the others it adds the
  chunk to what the point before left. So after point `n` a result block holds the sum of the chunks of `n`'s run of
  four up to `n` — by induction on the point — and the block a half writes back after its fourth point holds the
  half's inner products (its squared norms). The remainders `x - x` the kernel multiplies by vanish because the
  entries are real numbers.
-/
import proofs.«423393_j32272384262254_4_alg».proof.Proof.Pieces
import proofs.«423393_j32272384262254_4_alg».proof.Proof.Payload
import proofs.«423393_j32272384262254_4_alg».proof.Proof.Chunks

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.Proof.Chunks

variable (m : (ℓ : Loc nD τ sig) → Buf (Elt Ideal) ℓ)

/-- The two arrays of points as the region finds them. -/
abbrev ptsA (c : Dev nD) : Pts := V m c main_arg0
abbrev ptsB (c : Dev nD) : Pts := V m c main_arg1

/-- The two input blocks at point `t`. -/
abbrev blkA (c : Dev nD) (t : Fin cfg0.N) : Vec Ideal S256x8192 .f32 := iblk m c 0 t
abbrev blkB (c : Dev nD) (t : Fin cfg0.N) : Vec Ideal S256x8192 .f32 := iblk m c 1 t

/-- The index maps over the grid: point `t` reads chunk `t` of both arrays and writes block `t / 4` of each result. -/
theorem idx_in : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

theorem idx_out : ∀ t : Fin cfg0.N, win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- Point `t`'s block of the first points is chunk `t` of their coordinates. -/
theorem blkA_apply (c : Dev nD) (t : Fin cfg0.N) (i : Fin 256) (d : Fin 8192) :
    blkA m c t (ix2 i d) = ptsA m c (ix2 i (col (chunkAt t.val) d)) := by
  obtain ⟨e0, e1, -, -⟩ := idx_in t
  have hN : t.val < 8 := lt_of_lt_of_eq t.isLt N_0
  unfold blkA iblk
  rw [View.read_apply]
  show V m c main_arg0 (((cfg0.win 0).blk t).view.emb (ix2 i d)) = V m c main_arg0 (ix2 i (col (chunkAt t.val) d))
  refine congrArg (V m c main_arg0) (funext fun a => Fin.ext ?_)
  match a with
  | ⟨0, _⟩ => show win0_0.index t (0 : Fin 2) * 256 + 1 * i.val = i.val; omega
  | ⟨1, _⟩ => show win0_0.index t (1 : Fin 2) * 8192 + 1 * d.val = t.val % 8 * 8192 + d.val; omega

/-- Point `t`'s block of the second points is chunk `t` of their coordinates. -/
theorem blkB_apply (c : Dev nD) (t : Fin cfg0.N) (j : Fin 256) (d : Fin 8192) :
    blkB m c t (ix2 j d) = ptsB m c (ix2 j (col (chunkAt t.val) d)) := by
  obtain ⟨-, -, e0, e1⟩ := idx_in t
  have hN : t.val < 8 := lt_of_lt_of_eq t.isLt N_0
  unfold blkB iblk
  rw [View.read_apply]
  show V m c main_arg1 (((cfg0.win 1).blk t).view.emb (ix2 j d)) = V m c main_arg1 (ix2 j (col (chunkAt t.val) d))
  refine congrArg (V m c main_arg1) (funext fun a => Fin.ext ?_)
  match a with
  | ⟨0, _⟩ => show win0_1.index t (0 : Fin 2) * 256 + 1 * j.val = j.val; omega
  | ⟨1, _⟩ => show win0_1.index t (1 : Fin 2) * 8192 + 1 * d.val = t.val % 8 * 8192 + d.val; omega

section Steps

variable (c : Dev nD)

/-- What point `t` adds to the inner products: its chunk's, the remainders' sums being zero on real entries. -/
theorem dotTerms_blk (hA : ∀ y, ∃ r : ℝ, ptsA m c y = (r : EReal)) (hB : ∀ y, ∃ r : ℝ, ptsB m c y = (r : EReal))
    (t : Fin cfg0.N) (i j : Fin 256) :
    dotTerms (blkA m c t) (blkB m c t) i j = dotChunk (ptsA m c) (ptsB m c) (chunkAt t.val) i j := by
  unfold dotTerms dotChunk
  simp only [blkA_apply, blkB_apply]
  have z1 : ∑ d : Fin 8192, ptsA m c (ix2 i (col (chunkAt t.val) d))
      * (ptsB m c (ix2 j (col (chunkAt t.val) d)) - ptsB m c (ix2 j (col (chunkAt t.val) d))) = 0 :=
    Finset.sum_eq_zero fun d _ => by rw [sub_self_of_real (hB _), mul_zero]
  have z2 : ∑ d : Fin 8192, (ptsA m c (ix2 i (col (chunkAt t.val) d)) - ptsA m c (ix2 i (col (chunkAt t.val) d)))
      * ptsB m c (ix2 j (col (chunkAt t.val) d)) = 0 :=
    Finset.sum_eq_zero fun d _ => by rw [sub_self_of_real (hA _), zero_mul]
  rw [z1, z2, add_zero, add_zero]

theorem sqTermsA_blk (t : Fin cfg0.N) (i : Fin 256) :
    ∑ d : Fin 8192, blkA m c t (ix2 i d) * blkA m c t (ix2 i d) = dotChunk (ptsA m c) (ptsA m c) (chunkAt t.val) i i := by
  unfold dotChunk
  simp only [blkA_apply]

theorem sqTermsB_blk (t : Fin cfg0.N) (j : Fin 256) :
    ∑ d : Fin 8192, blkB m c t (ix2 j d) * blkB m c t (ix2 j d) = dotChunk (ptsB m c) (ptsB m c) (chunkAt t.val) j j := by
  unfold dotChunk
  simp only [blkB_apply]

/-! ### One point's effect on each result block -/

theorem mm_reset (hA : ∀ y, ∃ r : ℝ, ptsA m c y = (r : EReal)) (hB : ∀ y, ∃ r : ℝ, ptsB m c y = (r : EReal))
    (t : Fin cfg0.N) (h0 : t.val % 4 = 0) (u : Fin 1) (i j : Fin 256) :
    (outsAt0 m c t.val t.isLt).1 (ix3 u i j) = dotChunk (ptsA m c) (ptsB m c) (chunkAt t.val) i j := by
  rw [outsAt0_A m c t h0]
  dsimp only
  refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blkA m c t) (blkB m c t)) (ix3 u i j)).trans ?_
  refine (pay5_apply (blkA m c t) (blkB m c t) (k0_pay2 (F := Ideal)) u i j).trans ?_
  rw [pay2_apply, zero_add]
  exact dotTerms_blk m c hA hB t i j

theorem mm_step (hA : ∀ y, ∃ r : ℝ, ptsA m c y = (r : EReal)) (hB : ∀ y, ∃ r : ℝ, ptsB m c y = (r : EReal))
    (t : Fin cfg0.N) (h0 : ¬t.val % 4 = 0) (u : Fin 1) (i j : Fin 256) :
    (outsAt0 m c t.val t.isLt).1 (ix3 u i j)
      = (outsAt0 m c (t.val - 1) (Nat.lt_of_le_of_lt (Nat.sub_le _ _) t.isLt)).1 (ix3 0 i j) + dotChunk (ptsA m c) (ptsB m c) (chunkAt t.val) i j := by
  rw [outsAt0_B m c t h0]
  dsimp only
  refine (congrFun (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blkA m c t) (blkB m c t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 u i j)).trans ?_
  refine (pay5_apply (blkA m c t) (blkB m c t) (outsAt0 m c (t.val - 1) (Nat.lt_of_le_of_lt (Nat.sub_le _ _) t.isLt)).1 u i j).trans ?_
  rw [dotTerms_blk m c hA hB t i j]

theorem sqa_reset (t : Fin cfg0.N) (h0 : t.val % 4 = 0) (u v : Fin 1) (i : Fin 256) :
    (outsAt0 m c t.val t.isLt).2.1 (ix3 u v i) = dotChunk (ptsA m c) (ptsA m c) (chunkAt t.val) i i := by
  rw [outsAt0_A m c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blkA m c t) (blkB m c t)) (ix3 u v i)).trans ?_
  refine (pay6_apply (blkA m c t) (k0_pay3 (F := Ideal)) u v i).trans ?_
  rw [pay3_apply, zero_add]
  exact sqTermsA_blk m c t i

theorem sqa_step (t : Fin cfg0.N) (h0 : ¬t.val % 4 = 0) (u v : Fin 1) (i : Fin 256) :
    (outsAt0 m c t.val t.isLt).2.1 (ix3 u v i)
      = (outsAt0 m c (t.val - 1) (Nat.lt_of_le_of_lt (Nat.sub_le _ _) t.isLt)).2.1 (ix3 0 v i) + dotChunk (ptsA m c) (ptsA m c) (chunkAt t.val) i i := by
  rw [outsAt0_B m c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blkA m c t) (blkB m c t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 u v i)).trans ?_
  refine (pay6_apply (blkA m c t) (outsAt0 m c (t.val - 1) (Nat.lt_of_le_of_lt (Nat.sub_le _ _) t.isLt)).2.1 u v i).trans ?_
  rw [sqTermsA_blk m c t i]

theorem sqb_reset (t : Fin cfg0.N) (h0 : t.val % 4 = 0) (u v : Fin 1) (j : Fin 256) :
    (outsAt0 m c t.val t.isLt).2.2 (ix3 u v j) = dotChunk (ptsB m c) (ptsB m c) (chunkAt t.val) j j := by
  rw [outsAt0_A m c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blkA m c t) (blkB m c t)) (ix3 u v j)).trans ?_
  refine (pay1_apply (blkB m c t) (k0_pay4 (F := Ideal)) u v j).trans ?_
  rw [pay4_apply, zero_add]
  exact sqTermsB_blk m c t j

theorem sqb_step (t : Fin cfg0.N) (h0 : ¬t.val % 4 = 0) (u v : Fin 1) (j : Fin 256) :
    (outsAt0 m c t.val t.isLt).2.2 (ix3 u v j)
      = (outsAt0 m c (t.val - 1) (Nat.lt_of_le_of_lt (Nat.sub_le _ _) t.isLt)).2.2 (ix3 0 v j) + dotChunk (ptsB m c) (ptsB m c) (chunkAt t.val) j j := by
  rw [outsAt0_B m c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blkA m c t) (blkB m c t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) (ix3 u v j)).trans ?_
  refine (pay1_apply (blkB m c t) (outsAt0 m c (t.val - 1) (Nat.lt_of_le_of_lt (Nat.sub_le _ _) t.isLt)).2.2 u v j).trans ?_
  rw [sqTermsB_blk m c t j]

/-! ### After point `n`: the sums over `n`'s run of four up to `n` -/

theorem lt_N {n : ℕ} (h : n < 8) : n < cfg0.N := lt_of_lt_of_eq h N_0.symm

theorem mm_at (hA : ∀ y, ∃ r : ℝ, ptsA m c y = (r : EReal)) (hB : ∀ y, ∃ r : ℝ, ptsB m c y = (r : EReal))
    (n : ℕ) (h : n < 8) (i j : Fin 256) :
    (outsAt0 m c n (lt_N h)).1 (ix3 0 i j)
      = ∑ s ∈ Finset.range (n % 4 + 1), dotChunk (ptsA m c) (ptsB m c) (chunkAt (n - n % 4 + s)) i j :=
  run_sum (f := fun n h => (outsAt0 m c n (lt_N h)).1 (ix3 0 i j)) (g := fun n => dotChunk (ptsA m c) (ptsB m c) (chunkAt n) i j)
    (fun n h hz => mm_reset m c hA hB ⟨n, lt_N h⟩ hz 0 i j)
    (fun n h hz => mm_step m c hA hB ⟨n + 1, lt_N h⟩ hz 0 i j) n h

theorem sqa_at (n : ℕ) (h : n < 8) (i : Fin 256) :
    (outsAt0 m c n (lt_N h)).2.1 (ix3 0 0 i)
      = ∑ s ∈ Finset.range (n % 4 + 1), dotChunk (ptsA m c) (ptsA m c) (chunkAt (n - n % 4 + s)) i i :=
  run_sum (f := fun n h => (outsAt0 m c n (lt_N h)).2.1 (ix3 0 0 i)) (g := fun n => dotChunk (ptsA m c) (ptsA m c) (chunkAt n) i i)
    (fun n h hz => sqa_reset m c ⟨n, lt_N h⟩ hz 0 0 i)
    (fun n h hz => sqa_step m c ⟨n + 1, lt_N h⟩ hz 0 0 i) n h

theorem sqb_at (n : ℕ) (h : n < 8) (j : Fin 256) :
    (outsAt0 m c n (lt_N h)).2.2 (ix3 0 0 j)
      = ∑ s ∈ Finset.range (n % 4 + 1), dotChunk (ptsB m c) (ptsB m c) (chunkAt (n - n % 4 + s)) j j :=
  run_sum (f := fun n h => (outsAt0 m c n (lt_N h)).2.2 (ix3 0 0 j)) (g := fun n => dotChunk (ptsB m c) (ptsB m c) (chunkAt n) j j)
    (fun n h hz => sqb_reset m c ⟨n, lt_N h⟩ hz 0 0 j)
    (fun n h hz => sqb_step m c ⟨n + 1, lt_N h⟩ hz 0 0 j) n h

end Steps

end Cert.KernelIdeal.Acc

end
-- ==== Proof.Finals.lean ====
/-
  The region's three result arrays after the run: block `c` of each is what half `c` of the coordinates wrote back
  after its fourth point, the half's inner products (squared norms); the two blocks tile the array.
-/
import proofs.«423393_j32272384262254_4_alg».proof.Proof.Accum

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.Proof.Chunks

variable (m : (ℓ : Loc nD τ sig) → Buf (Elt Ideal) ℓ)

/-! ### Result 0 -/

/-- The array: per half of the coordinates, the inner products of the first points with the second. -/
def mmArr (c : Dev nD) : Buf (Elt Ideal) ((c.tc : Thread nD τ).loc main_v1_0) :=
  fun (y : S2x256x256.Idx) => halfDot (ptsA m c) (ptsB m c) (y 0) (y 1) (y 2)

theorem mem_blk2 (t : Fin cfg0.N) (i : S2x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v1_0).slice (win0_2.rect t)).set ↔ _
  rw [View.set_slice_whole, Rect.mem_set_unit]
  exact Iff.rfl

/-- Every index of the array is in the block its half writes back after the half's fourth point. -/
theorem cover2 (i : S2x256x256.Idx) : ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 256 := (i 2).isLt
  have hb : 4 * (i 0).val + 3 < 8 := by omega
  obtain ⟨e0, e1, e2, -⟩ := idx_out (⟨4 * (i 0).val + 3, lt_N hb⟩ : Fin cfg0.N)
  have e0' : win0_2.index (⟨4 * (i 0).val + 3, lt_N hb⟩ : Fin cfg0.N) (0 : Fin 3) = (4 * (i 0).val + 3) / 4 := e0
  refine ⟨⟨4 * (i 0).val + 3, lt_N hb⟩, (flush0_2 _).mpr (by show (4 * (i 0).val + 3) % 4 = 3; omega), ?_⟩
  rw [mem_blk2]
  intro a
  match a with
  | ⟨0, _⟩ =>
    show win0_2.index (⟨4 * (i 0).val + 3, lt_N hb⟩ : Fin cfg0.N) (0 : Fin 3) * 1 ≤ (i 0).val ∧ (i 0).val < win0_2.index (⟨4 * (i 0).val + 3, lt_N hb⟩ : Fin cfg0.N) (0 : Fin 3) * 1 + 1
    omega
  | ⟨1, _⟩ =>
    show win0_2.index (⟨4 * (i 0).val + 3, lt_N hb⟩ : Fin cfg0.N) (1 : Fin 3) * 256 ≤ (i 1).val ∧ (i 1).val < win0_2.index (⟨4 * (i 0).val + 3, lt_N hb⟩ : Fin cfg0.N) (1 : Fin 3) * 256 + 256
    omega
  | ⟨2, _⟩ =>
    show win0_2.index (⟨4 * (i 0).val + 3, lt_N hb⟩ : Fin cfg0.N) (2 : Fin 3) * 256 ≤ (i 2).val ∧ (i 2).val < win0_2.index (⟨4 * (i 0).val + 3, lt_N hb⟩ : Fin cfg0.N) (2 : Fin 3) * 256 + 256
    omega

/-- What a half writes back after its fourth point is its block of the array. -/
theorem flushed2_eq (c : Dev nD)
    (hA : ∀ y, ∃ r : ℝ, ptsA m c y = (r : EReal)) (hB : ∀ y, ∃ r : ℝ, ptsB m c y = (r : EReal))
    (t : Fin cfg0.N) (hf : (cfg0.win 2).flush t = true) :
    (dats m 0 c).flushed 2 t = ((cfg0.win 2).blk t).view.read (Elt Ideal) (mmArr m c) := by
  have h3 : t.val % 4 = 3 := (flush0_2 t).mp hf
  have hN : t.val < 8 := lt_of_lt_of_eq t.isLt N_0
  obtain ⟨e0, e1, e2, -⟩ := idx_out t
  show (cfg0.win 2).cut (grid0.coords t) ((dats m 0 c).after 2 t) = _
  rw [after0_2]
  funext y
  have hy0 : (y 0).val = 0 := by have : (y 0).val < 1 := (y 0).isLt; omega
  have hy1 : (y 1).val < 256 := (y 1).isLt
  have hy2 : (y 2).val < 256 := (y 2).isLt
  have hy : y = ix3 (0 : Fin 1) (⟨(y 1).val, hy1⟩ : Fin 256) (⟨(y 2).val, hy2⟩ : Fin 256) :=
    funext fun a => Fin.ext (by match a with | ⟨0, _⟩ => exact hy0 | ⟨1, _⟩ => rfl | ⟨2, _⟩ => rfl)
  show (outsAt0 m c t.val t.isLt).1 y = mmArr m c (((cfg0.win 2).blk t).view.emb y)
  refine ((congrArg (outsAt0 m c t.val t.isLt).1 hy).trans ((mm_at m c hA hB t.val hN ⟨(y 1).val, hy1⟩ ⟨(y 2).val, hy2⟩).trans
    (run_eq_halfDot (ptsA m c) (ptsB m c) (⟨(y 1).val, hy1⟩ : Fin 256) (⟨(y 2).val, hy2⟩ : Fin 256) t.val hN h3))).trans ?_
  show halfDot (ptsA m c) (ptsB m c) ⟨t.val / 4, _⟩ _ _
    = halfDot (ptsA m c) (ptsB m c) ((((cfg0.win 2).blk t).view.emb y) 0) ((((cfg0.win 2).blk t).view.emb y) 1) ((((cfg0.win 2).blk t).view.emb y) 2)
  have c0 : (⟨t.val / 4, by omega⟩ : Fin 2) = (((cfg0.win 2).blk t).view.emb y) 0 := Fin.ext (by
    show t.val / 4 = win0_2.index t (0 : Fin 3) * 1 + 1 * (y 0).val; omega)
  have c2 : (⟨(y 2).val, hy2⟩ : Fin 256) = (((cfg0.win 2).blk t).view.emb y) 2 := Fin.ext (by
    show (y 2).val = win0_2.index t (2 : Fin 3) * 256 + 1 * (y 2).val; omega)
  have c1 : (⟨(y 1).val, hy1⟩ : Fin 256) = (((cfg0.win 2).blk t).view.emb y) 1 := Fin.ext (by
    show (y 1).val = win0_2.index t (1 : Fin 3) * 256 + 1 * (y 1).val; omega)
  rw [c0, c1, c2]

/-- The array after the region. -/
theorem final2 (c : Dev nD)
    (hA : ∀ y, ∃ r : ℝ, ptsA m c y = (r : EReal)) (hB : ∀ y, ∃ r : ℝ, ptsB m c y = (r : EReal)) :
    (dats m 0 c).arrAt 2 cfg0.N = mmArr m c :=
  (dats m 0 c).arrAt_eq_of_cover 2 (mmArr m c) (flushed2_eq m c hA hB ) cover2

/-! ### Result 1 -/

/-- The array: per half of the coordinates, the squared norms of the points. -/
def sqaArr (c : Dev nD) : Buf (Elt Ideal) ((c.tc : Thread nD τ).loc main_v1_1) :=
  fun (y : S2x1x256.Idx) => halfDot (ptsA m c) (ptsA m c) (y 0) (y 2) (y 2)

theorem mem_blk3 (t : Fin cfg0.N) (i : S2x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v1_1).slice (win0_3.rect t)).set ↔ _
  rw [View.set_slice_whole, Rect.mem_set_unit]
  exact Iff.rfl

/-- Every index of the array is in the block its half writes back after the half's fourth point. -/
theorem cover3 (i : S2x1x256.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 256 := (i 2).isLt
  have hb : 4 * (i 0).val + 3 < 8 := by omega
  obtain ⟨-, -, -, e0, e1, e2, -⟩ := idx_out (⟨4 * (i 0).val + 3, lt_N hb⟩ : Fin cfg0.N)
  have e0' : win0_3.index (⟨4 * (i 0).val + 3, lt_N hb⟩ : Fin cfg0.N) (0 : Fin 3) = (4 * (i 0).val + 3) / 4 := e0
  refine ⟨⟨4 * (i 0).val + 3, lt_N hb⟩, (flush0_3 _).mpr (by show (4 * (i 0).val + 3) % 4 = 3; omega), ?_⟩
  rw [mem_blk3]
  intro a
  match a with
  | ⟨0, _⟩ =>
    show win0_3.index (⟨4 * (i 0).val + 3, lt_N hb⟩ : Fin cfg0.N) (0 : Fin 3) * 1 ≤ (i 0).val ∧ (i 0).val < win0_3.index (⟨4 * (i 0).val + 3, lt_N hb⟩ : Fin cfg0.N) (0 : Fin 3) * 1 + 1
    omega
  | ⟨1, _⟩ =>
    show win0_3.index (⟨4 * (i 0).val + 3, lt_N hb⟩ : Fin cfg0.N) (1 : Fin 3) * 1 ≤ (i 1).val ∧ (i 1).val < win0_3.index (⟨4 * (i 0).val + 3, lt_N hb⟩ : Fin cfg0.N) (1 : Fin 3) * 1 + 1
    omega
  | ⟨2, _⟩ =>
    show win0_3.index (⟨4 * (i 0).val + 3, lt_N hb⟩ : Fin cfg0.N) (2 : Fin 3) * 256 ≤ (i 2).val ∧ (i 2).val < win0_3.index (⟨4 * (i 0).val + 3, lt_N hb⟩ : Fin cfg0.N) (2 : Fin 3) * 256 + 256
    omega

/-- What a half writes back after its fourth point is its block of the array. -/
theorem flushed3_eq (c : Dev nD)
    (t : Fin cfg0.N) (hf : (cfg0.win 3).flush t = true) :
    (dats m 0 c).flushed 3 t = ((cfg0.win 3).blk t).view.read (Elt Ideal) (sqaArr m c) := by
  have h3 : t.val % 4 = 3 := (flush0_3 t).mp hf
  have hN : t.val < 8 := lt_of_lt_of_eq t.isLt N_0
  obtain ⟨-, -, -, e0, e1, e2, -⟩ := idx_out t
  show (cfg0.win 3).cut (grid0.coords t) ((dats m 0 c).after 3 t) = _
  rw [after0_3]
  funext y
  have hy0 : (y 0).val = 0 := by have : (y 0).val < 1 := (y 0).isLt; omega
  have hy1 : (y 1).val = 0 := by have : (y 1).val < 1 := (y 1).isLt; omega
  have hy2 : (y 2).val < 256 := (y 2).isLt
  have hy : y = ix3 (0 : Fin 1) (0 : Fin 1) (⟨(y 2).val, hy2⟩ : Fin 256) :=
    funext fun a => Fin.ext (by match a with | ⟨0, _⟩ => exact hy0 | ⟨1, _⟩ => exact hy1 | ⟨2, _⟩ => rfl)
  show (outsAt0 m c t.val t.isLt).2.1 y = sqaArr m c (((cfg0.win 3).blk t).view.emb y)
  refine ((congrArg (outsAt0 m c t.val t.isLt).2.1 hy).trans ((sqa_at m c t.val hN ⟨(y 2).val, hy2⟩).trans
    (run_eq_halfDot (ptsA m c) (ptsA m c) (⟨(y 2).val, hy2⟩ : Fin 256) (⟨(y 2).val, hy2⟩ : Fin 256) t.val hN h3))).trans ?_
  show halfDot (ptsA m c) (ptsA m c) ⟨t.val / 4, _⟩ _ _
    = halfDot (ptsA m c) (ptsA m c) ((((cfg0.win 3).blk t).view.emb y) 0) ((((cfg0.win 3).blk t).view.emb y) 2) ((((cfg0.win 3).blk t).view.emb y) 2)
  have c0 : (⟨t.val / 4, by omega⟩ : Fin 2) = (((cfg0.win 3).blk t).view.emb y) 0 := Fin.ext (by
    show t.val / 4 = win0_3.index t (0 : Fin 3) * 1 + 1 * (y 0).val; omega)
  have c2 : (⟨(y 2).val, hy2⟩ : Fin 256) = (((cfg0.win 3).blk t).view.emb y) 2 := Fin.ext (by
    show (y 2).val = win0_3.index t (2 : Fin 3) * 256 + 1 * (y 2).val; omega)
  rw [c0, c2]

/-- The array after the region. -/
theorem final3 (c : Dev nD) :
    (dats m 0 c).arrAt 3 cfg0.N = sqaArr m c :=
  (dats m 0 c).arrAt_eq_of_cover 3 (sqaArr m c) (flushed3_eq m c ) cover3

/-! ### Result 2 -/

/-- The array: per half of the coordinates, the squared norms of the points. -/
def sqbArr (c : Dev nD) : Buf (Elt Ideal) ((c.tc : Thread nD τ).loc main_v1_2) :=
  fun (y : S2x1x256.Idx) => halfDot (ptsB m c) (ptsB m c) (y 0) (y 2) (y 2)

theorem mem_blk4 (t : Fin cfg0.N) (i : S2x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v1_2).slice (win0_4.rect t)).set ↔ _
  rw [View.set_slice_whole, Rect.mem_set_unit]
  exact Iff.rfl

/-- Every index of the array is in the block its half writes back after the half's fourth point. -/
theorem cover4 (i : S2x1x256.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 256 := (i 2).isLt
  have hb : 4 * (i 0).val + 3 < 8 := by omega
  obtain ⟨-, -, -, -, -, -, e0, e1, e2⟩ := idx_out (⟨4 * (i 0).val + 3, lt_N hb⟩ : Fin cfg0.N)
  have e0' : win0_4.index (⟨4 * (i 0).val + 3, lt_N hb⟩ : Fin cfg0.N) (0 : Fin 3) = (4 * (i 0).val + 3) / 4 := e0
  refine ⟨⟨4 * (i 0).val + 3, lt_N hb⟩, (flush0_4 _).mpr (by show (4 * (i 0).val + 3) % 4 = 3; omega), ?_⟩
  rw [mem_blk4]
  intro a
  match a with
  | ⟨0, _⟩ =>
    show win0_4.index (⟨4 * (i 0).val + 3, lt_N hb⟩ : Fin cfg0.N) (0 : Fin 3) * 1 ≤ (i 0).val ∧ (i 0).val < win0_4.index (⟨4 * (i 0).val + 3, lt_N hb⟩ : Fin cfg0.N) (0 : Fin 3) * 1 + 1
    omega
  | ⟨1, _⟩ =>
    show win0_4.index (⟨4 * (i 0).val + 3, lt_N hb⟩ : Fin cfg0.N) (1 : Fin 3) * 1 ≤ (i 1).val ∧ (i 1).val < win0_4.index (⟨4 * (i 0).val + 3, lt_N hb⟩ : Fin cfg0.N) (1 : Fin 3) * 1 + 1
    omega
  | ⟨2, _⟩ =>
    show win0_4.index (⟨4 * (i 0).val + 3, lt_N hb⟩ : Fin cfg0.N) (2 : Fin 3) * 256 ≤ (i 2).val ∧ (i 2).val < win0_4.index (⟨4 * (i 0).val + 3, lt_N hb⟩ : Fin cfg0.N) (2 : Fin 3) * 256 + 256
    omega

/-- What a half writes back after its fourth point is its block of the array. -/
theorem flushed4_eq (c : Dev nD)
    (t : Fin cfg0.N) (hf : (cfg0.win 4).flush t = true) :
    (dats m 0 c).flushed 4 t = ((cfg0.win 4).blk t).view.read (Elt Ideal) (sqbArr m c) := by
  have h3 : t.val % 4 = 3 := (flush0_4 t).mp hf
  have hN : t.val < 8 := lt_of_lt_of_eq t.isLt N_0
  obtain ⟨-, -, -, -, -, -, e0, e1, e2⟩ := idx_out t
  show (cfg0.win 4).cut (grid0.coords t) ((dats m 0 c).after 4 t) = _
  rw [after0_4]
  funext y
  have hy0 : (y 0).val = 0 := by have : (y 0).val < 1 := (y 0).isLt; omega
  have hy1 : (y 1).val = 0 := by have : (y 1).val < 1 := (y 1).isLt; omega
  have hy2 : (y 2).val < 256 := (y 2).isLt
  have hy : y = ix3 (0 : Fin 1) (0 : Fin 1) (⟨(y 2).val, hy2⟩ : Fin 256) :=
    funext fun a => Fin.ext (by match a with | ⟨0, _⟩ => exact hy0 | ⟨1, _⟩ => exact hy1 | ⟨2, _⟩ => rfl)
  show (outsAt0 m c t.val t.isLt).2.2 y = sqbArr m c (((cfg0.win 4).blk t).view.emb y)
  refine ((congrArg (outsAt0 m c t.val t.isLt).2.2 hy).trans ((sqb_at m c t.val hN ⟨(y 2).val, hy2⟩).trans
    (run_eq_halfDot (ptsB m c) (ptsB m c) (⟨(y 2).val, hy2⟩ : Fin 256) (⟨(y 2).val, hy2⟩ : Fin 256) t.val hN h3))).trans ?_
  show halfDot (ptsB m c) (ptsB m c) ⟨t.val / 4, _⟩ _ _
    = halfDot (ptsB m c) (ptsB m c) ((((cfg0.win 4).blk t).view.emb y) 0) ((((cfg0.win 4).blk t).view.emb y) 2) ((((cfg0.win 4).blk t).view.emb y) 2)
  have c0 : (⟨t.val / 4, by omega⟩ : Fin 2) = (((cfg0.win 4).blk t).view.emb y) 0 := Fin.ext (by
    show t.val / 4 = win0_4.index t (0 : Fin 3) * 1 + 1 * (y 0).val; omega)
  have c2 : (⟨(y 2).val, hy2⟩ : Fin 256) = (((cfg0.win 4).blk t).view.emb y) 2 := Fin.ext (by
    show (y 2).val = win0_4.index t (2 : Fin 3) * 256 + 1 * (y 2).val; omega)
  rw [c0, c2]

/-- The array after the region. -/
theorem final4 (c : Dev nD) :
    (dats m 0 c).arrAt 4 cfg0.N = sqbArr m c :=
  (dats m 0 c).arrAt_eq_of_cover 4 (sqbArr m c) (flushed4_eq m c ) cover4

end Cert.KernelIdeal.Acc

end
-- ==== Proof.KTail.lean ====
/-
  The kernel's host lines after the region, as two functions at the extended reals.

  `sqOf`: from the region's three result arrays — per half `c` of the coordinates the inner products
  `MM c i j` and the squared norms `SA c 0 i`, `SB c 0 j` — the matrix of squared distances
  `(∑ c, SA c 0 i) + (∑ c, SB c 0 j) - 2 * ∑ c, MM c i j`.
  `loss`: from a matrix `s` of squared distances and the tolerance `t`, the distances
  `d = if max s 0 > 0 then sqrt (max s 0) else 0`, and the mean over `i` of `min_j max (d i j - t) 0` plus the mean
  over `j` of `min_i max (d i j - t) 0`.
-/
import proofs.«423393_j32272384262254_4_alg».proof.KernelIdeal
import proofs.«423393_j32272384262254_4_alg».proof.Proof.Gen.KernelIdeal
import Idealize.ShloMosaic.PureOps.Ideal

noncomputable section

namespace Cert.KernelIdeal.TailValue

open Idealize.ShloMosaic Cert.KernelIdeal Cert.KernelIdeal.Gen

/-- The squared distances from the two halves' inner products and squared norms. -/
def sqOf (MM : FVec Ideal S2x256x256 .f32) (SA SB : FVec Ideal S2x1x256 .f32) : FVec Ideal S256x256 .f32 :=
  subf
    (addf
      (broadcastInDim S256x256 ![0, 1] bcast_S256x1_S256x256_0_1
        (transpose S256x1 [1, 0] (Host.reduceAdd SA (constant S_ .f32 0x00000000#32) reducesTo_S2x1x256_S1x256_d0 h_S_)
          transposes_S1x256_S256x1_1_0))
      (broadcastInDim S256x256 ![0, 1] bcast_S1x256_S256x256_0_1
        (Host.reduceAdd SB (constant S_ .f32 0x00000000#32) reducesTo_S2x1x256_S1x256_d0 h_S_)))
    (mulf (broadcastInDim S256x256 ![] bcast_S_S256x256 (constant S_ .f32 0x40000000#32))
      (Host.reduceAdd MM (constant S_ .f32 0x00000000#32) reducesTo_S2x256x256_S256x256_d0 h_S_))

/-- The squared distances clamped at zero. -/
def clamp (s : FVec Ideal S256x256 .f32) : FVec Ideal S256x256 .f32 :=
  maximumf s (broadcastInDim S256x256 ![] bcast_S_S256x256 (constant S_ .f32 0x00000000#32))

/-- The distances: the square root where the clamped square is positive (taken of `1` elsewhere), `0` elsewhere. -/
def dist (s : FVec Ideal S256x256 .f32) : FVec Ideal S256x256 .f32 :=
  select (cmpf .ogt (clamp s) (broadcastInDim S256x256 ![] bcast_S_S256x256 (constant S_ .f32 0x00000000#32)))
    (Host.sqrt
      (select (cmpf .ogt (clamp s) (broadcastInDim S256x256 ![] bcast_S_S256x256 (constant S_ .f32 0x00000000#32)))
        (clamp s) (broadcastInDim S256x256 ![] bcast_S_S256x256 (id (constant S_ .f32 0x3F800000#32)))))
    (broadcastInDim S256x256 ![] bcast_S_S256x256 (id (constant S_ .f32 0x00000000#32)))

/-- The distances beyond the tolerance, clamped at zero. -/
def excess (s : FVec Ideal S256x256 .f32) (t : FVec Ideal S_ .f32) : FVec Ideal S256x256 .f32 :=
  maximumf (subf (dist s) (broadcastInDim S256x256 ![] bcast_S_S256x256 t))
    (broadcastInDim S256x256 ![] bcast_S_S256x256 (constant S_ .f32 0x00000000#32))

/-- The mean of the row minima plus the mean of the column minima. -/
def loss (s : FVec Ideal S256x256 .f32) (t : FVec Ideal S_ .f32) : FVec Ideal S_ .f32 :=
  addf
    (Host.divf
      (Host.reduceAdd
        (Host.reduce FloatOps.minimumf (excess s t) (constant S_ .f32 0x7F800000#32) reducesTo_S256x256_S256_d1 h_S_)
        (constant S_ .f32 0x00000000#32) reducesTo_S256_S_d0 h_S_)
      (constant S_ .f32 0x43800000#32))
    (Host.divf
      (Host.reduceAdd
        (Host.reduce FloatOps.minimumf (excess s t) (constant S_ .f32 0x7F800000#32) reducesTo_S256x256_S256_d0 h_S_)
        (constant S_ .f32 0x00000000#32) reducesTo_S256_S_d0 h_S_)
      (constant S_ .f32 0x43800000#32))

end Cert.KernelIdeal.TailValue

end
-- ==== Proof.KernelRun.lean ====
/-
  The idealized kernel's run, read: its result is `loss` of the squared distances made from the region's three
  result arrays, and of the tolerance converted to a float.
-/
import proofs.«423393_j32272384262254_4_alg».proof.Proof.Finals
import proofs.«423393_j32272384262254_4_alg».proof.Proof.KTail
import Idealize.ShloMosaic.Lib.StableHlo.Run

noncomputable section

namespace Cert.KernelIdeal.KRun

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

set_option maxRecDepth 8192 in
set_option maxHeartbeats 2000000 in
/-- The host lines after the region compute `loss` of `sqOf` of the three arrays the region leaves. -/
theorem tail_eq (c : Dev nD) :
    Pipeline.afterTail₀ cfgs (dats m) 0 (V0 m) [hostOps1, hostOps1_1, hostOps1_2, hostOps1_3, hostOps1_4] c main_v35
      = Cert.KernelIdeal.TailValue.loss
          (Cert.KernelIdeal.TailValue.sqOf ((dats m 0 c).arrAt 2 cfg0.N) ((dats m 0 c).arrAt 3 cfg0.N) ((dats m 0 c).arrAt 4 cfg0.N))
          (sitofp .f32 (m ((c.tc : Thread nD τ).loc main_arg2))) := by
  have e2 : Pipeline.withArrays (cfgs 0).spec c (V0 m c) (fun w => (dats m 0 c).arrAt w (cfgs 0).N) (Proc.devRef .tc main_v1_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v1_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v1_2)
      = (dats m 0 c).arrAt 4 cfg0.N := Pipeline.withArrays_arr spec0 launch0.win.arr_inj c _ _ 4
  have e0 : Pipeline.withArrays (cfgs 0).spec c (V0 m c) (fun w => (dats m 0 c).arrAt w (cfgs 0).N) (Proc.devRef .tc main_v0)
      = (sitofp (F := Ideal) .f32 (m ((c.tc : Thread nD τ).loc main_arg2)) : FVec Ideal S_ .f32) := by
    rw [Pipeline.withArrays_of_ne _ c (V0 m c) _ main_v0 (by exact (by decide : ∀ w, Pipeline.arrRef spec0 w ≠ main_v0))]
    show StableHlo.after (List.flatten [hostOps0]) (fun b => m (c, b)) (Proc.devRef .tc main_v0) = _
    simp only [hostOps0, List.flatten_cons, List.flatten_nil, List.append_nil]
    after_results
  unfold Pipeline.afterTail₀
  simp only [hostOps1, hostOps1_1, hostOps1_2, hostOps1_3, hostOps1_4, List.flatten_cons, List.flatten_nil, List.append_nil, List.cons_append, List.nil_append]
  after_results_simp
  rw [e2, e3, e4, e0]
  rfl

/-- From a memory whose two arrays of points hold real numbers: every weakly fair execution terminates with the
    result at `loss` of the squared distances of the two halves' inner products and squared norms, the arguments
    unchanged. -/
theorem run
    (hfin : ∀ c : Dev nD, (∀ y, ∃ r : ℝ, m ((c.tc : Thread nD τ).loc main_arg0) y = (r : EReal))
      ∧ (∀ y, ∃ r : ℝ, m ((c.tc : Thread nD τ).loc main_arg1) y = (r : EReal))) :
    θ_run defs (onTc (τ := τ) (main (F := Ideal))) ⟨m, fun _ => 0, ρ⟩ fun r => ∀ c : Dev nD,
      r.2.mem ((c.tc : Thread nD τ).loc main_v35)
          = Cert.KernelIdeal.TailValue.loss
              (Cert.KernelIdeal.TailValue.sqOf (Acc.mmArr m c) (Acc.sqaArr m c) (Acc.sqbArr m c))
              (sitofp .f32 (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hA : ∀ (c : Dev nD) y, ∃ r : ℝ, Acc.ptsA m c y = (r : EReal) := fun c y => by
    have e : Acc.ptsA m c = m ((c.tc : Thread nD τ).loc main_arg0) := V_main_arg0 m c
    rw [e]; exact (hfin c).1 y
  have hB : ∀ (c : Dev nD) y, ∃ r : ℝ, Acc.ptsB m c y = (r : EReal) := fun c y => by
    have e : Acc.ptsB m c = m ((c.tc : Thread nD τ).loc main_arg1) := V_main_arg1 m c
    rw [e]; exact (hfin c).2 y
  refine (θ_run defs _ _).mono (fun r h c => ⟨?_, ?_, ?_, ?_⟩) (run_main m ρ)
  · refine ((h c).2 main_v35 (Pipeline.mem_restRefs_of main_v35 (by decide) (by decide))).trans ?_
    rw [tail_eq m c, Acc.final2 m c (hA c) (hB c), Acc.final3 m c, Acc.final4 m c]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end Cert.KernelIdeal.KRun

end
-- ==== Proof.RTail.lean ====
/-
  The reference's lines after its matrix of squared distances, as a function at the extended reals: from a
  matrix `s` of squared distances and the tolerance `t`, the distances
  `d = if max s 0 > 0 then sqrt (max s 0) else 0`, and the mean over `i` of `min_j max (d i j - t) 0` plus the same
  of the TRANSPOSED distances (the mean over `j` of `min_i max (d i j - t) 0`).
-/
import proofs.«423393_j32272384262254_4_alg».proof.ReferenceIdeal
import proofs.«423393_j32272384262254_4_alg».proof.Proof.Gen.ReferenceIdeal
import Idealize.ShloMosaic.PureOps.Ideal

noncomputable section

namespace Cert.ReferenceIdeal.RefValue

open Idealize.ShloMosaic Cert.ReferenceIdeal Cert.ReferenceIdeal.Gen

/-- The squared distances clamped at zero. -/
def clamp (s : FVec Ideal S256x256 .f32) : FVec Ideal S256x256 .f32 :=
  maximumf s (broadcastInDim S256x256 ![] bcast_S_S256x256 (constant S_ .f32 0x00000000#32))

/-- The distances: the square root where the clamped square is positive (taken of `1` elsewhere), `0` elsewhere. -/
def dist (s : FVec Ideal S256x256 .f32) : FVec Ideal S256x256 .f32 :=
  select (cmpf .ogt (clamp s) (broadcastInDim S256x256 ![] bcast_S_S256x256 (constant S_ .f32 0x00000000#32)))
    (Host.sqrt
      (select (cmpf .ogt (clamp s) (broadcastInDim S256x256 ![] bcast_S_S256x256 (constant S_ .f32 0x00000000#32)))
        (clamp s) (broadcastInDim S256x256 ![] bcast_S_S256x256 (id (constant S_ .f32 0x3F800000#32)))))
    (broadcastInDim S256x256 ![] bcast_S_S256x256 (id (constant S_ .f32 0x00000000#32)))

/-- A matrix of distances beyond the tolerance, clamped at zero. -/
def excessOf (d : FVec Ideal S256x256 .f32) (t : FVec Ideal S_ .f32) : FVec Ideal S256x256 .f32 :=
  maximumf (subf d (broadcastInDim S256x256 ![] bcast_S_S256x256 t))
    (broadcastInDim S256x256 ![] bcast_S_S256x256 (constant S_ .f32 0x00000000#32))

/-- The mean of the row minima of a matrix. -/
def meanRowMin (e : FVec Ideal S256x256 .f32) : FVec Ideal S_ .f32 :=
  Host.divf
    (Host.reduceAdd
      (Host.reduce FloatOps.minimumf e (constant S_ .f32 0x7F800000#32) reducesTo_S256x256_S256_d1 h_S_)
      (constant S_ .f32 0x00000000#32) reducesTo_S256_S_d0 h_S_)
    (constant S_ .f32 0x43800000#32)

/-- The mean of the row minima of the excess distances plus that of the TRANSPOSED distances' excess. -/
def loss (s : FVec Ideal S256x256 .f32) (t : FVec Ideal S_ .f32) : FVec Ideal S_ .f32 :=
  addf (meanRowMin (excessOf (dist s) t))
    (meanRowMin (excessOf (transpose S256x256 [1, 0] (dist s) transposes_S256x256_S256x256_1_0) t))

end Cert.ReferenceIdeal.RefValue

end
-- ==== Proof.RefSide.lean ====
/-
  The reference, read: its result is `loss` of its matrix of squared distances and the tolerance, and that
  matrix at `(i, j)` is `|X i|² + |Y j|² - 2 * (X i · Y j)`, each a sum over all 65536 coordinates.
-/
import proofs.«423393_j32272384262254_4_alg».proof.Defs
import proofs.«423393_j32272384262254_4_alg».proof.Proof.Gen.ReferenceIdeal.Run
import proofs.«423393_j32272384262254_4_alg».proof.Proof.Gen.ReferenceIdeal.Read
import proofs.«423393_j32272384262254_4_alg».proof.Proof.Chunks
import proofs.«423393_j32272384262254_4_alg».proof.Proof.RTail

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Proof.Chunks

set_option maxRecDepth 8192 in
/-- The reference's result is `loss` of its squared distances and the tolerance converted to a float. -/
theorem res_eq (m : (ℓ : Loc nD τ sig) → Buf (Elt Ideal) ℓ) (c : Dev nD) :
    Cert.ReferenceIdeal.Value.res_main_v37 (F := Ideal) m c
      = loss (Cert.ReferenceIdeal.Read.val_main_v14 (F := Ideal) (m ((c.tc : Thread nD τ).loc main_arg0)) (m ((c.tc : Thread nD τ).loc main_arg1)))
          (sitofp .f32 (m ((c.tc : Thread nD τ).loc main_arg2))) := by
  unfold Cert.ReferenceIdeal.Value.res_main_v37 loss meanRowMin excessOf dist clamp
  rfl

/-- Row `i` of the first operand, read through the two broadcasts and the sum's index map. -/
private theorem idx_rowX (i j : Fin 256) (k : Fin 65536) :
    Cert.ReferenceIdeal.Read.idx_main_v2
        (Cert.ReferenceIdeal.Read.idx_main_v3 (Cert.ReferenceIdeal.Read.idx_main_v7 (ix2 i j))) k = ix2 i k :=
  funext fun a => Fin.ext (by match a with | ⟨0, _⟩ => rfl | ⟨1, _⟩ => rfl)

/-- Row `j` of the second operand, read through the two broadcasts and the sum's index map. -/
private theorem idx_rowY (i j : Fin 256) (k : Fin 65536) :
    Cert.ReferenceIdeal.Read.idx_main_v5
        (Cert.ReferenceIdeal.Read.idx_main_v6 (Cert.ReferenceIdeal.Read.idx_main_v8 (ix2 i j))) k = ix2 j k :=
  funext fun a => Fin.ext (by match a with | ⟨0, _⟩ => rfl | ⟨1, _⟩ => rfl)

/-- The left index of the product of matrices at `(i, j)`, coordinate `k`. -/
private theorem idx_dotL (i j : Fin 256) (k : Fin 65536) :
    Cert.ReferenceIdeal.Read.lidx_main_v11 (ix2 i j) k = ix2 i k :=
  funext fun a => Fin.ext (by match a with | ⟨0, _⟩ => rfl | ⟨1, _⟩ => rfl)

/-- The right index of the product of matrices at `(i, j)`, coordinate `k`, through the transpose. -/
private theorem idx_dotR (i j : Fin 256) (k : Fin 65536) :
    Cert.ReferenceIdeal.Read.idx_main_v10 (Cert.ReferenceIdeal.Read.ridx_main_v11 (ix2 i j) k) = ix2 j k :=
  funext fun a => Fin.ext (by match a with | ⟨0, _⟩ => rfl | ⟨1, _⟩ => rfl)

/-- The reference's squared distance of point `i` of `X` and point `j` of `Y`. -/
theorem sq_apply (X Y : Pts) (i j : Fin 256) :
    Cert.ReferenceIdeal.Read.val_main_v14 (F := Ideal) X Y (ix2 i j)
      = (dot X X i i + dot Y Y j j) - Ideal.ofBits .f32 0x40000000#32 * dot X Y i j := by
  rw [Cert.ReferenceIdeal.Read.val_main_v14_apply, Cert.ReferenceIdeal.Read.val_main_v9_apply,
    Cert.ReferenceIdeal.Read.val_main_v13_apply, Cert.ReferenceIdeal.Read.val_main_v12_apply,
    Cert.ReferenceIdeal.Read.val_main_cst_1_apply,
    Cert.ReferenceIdeal.Read.val_main_v7_apply, Cert.ReferenceIdeal.Read.val_main_v3_apply,
    Cert.ReferenceIdeal.Read.val_main_v2_apply,
    Cert.ReferenceIdeal.Read.val_main_v8_apply, Cert.ReferenceIdeal.Read.val_main_v6_apply,
    Cert.ReferenceIdeal.Read.val_main_v5_apply,
    Cert.ReferenceIdeal.Read.val_main_v11_apply,
    Cert.ReferenceIdeal.Read.val_main_cst_apply, Cert.ReferenceIdeal.Read.val_main_cst_0_apply]
  simp only [Cert.ReferenceIdeal.Read.val_main_v1_apply, Cert.ReferenceIdeal.Read.val_main_v4_apply,
    Cert.ReferenceIdeal.Read.val_main_v10_apply, idx_rowX, idx_rowY, idx_dotL, idx_dotR,
    Ideal.ofBits_def, Ideal.addf_def, Ideal.subf_def, Ideal.mulf_def, Ideal.ofBits_zero_f32, zero_add]
  rfl

end Cert.ReferenceIdeal.RefValue

end
-- ==== Proof.TailBridge.lean ====
/-
  The two programs' host lines agree: the kernel's squared distances read at an index, and the two losses one
  function (a column minimum is the row minimum of the transposed matrix).
-/
import proofs.«423393_j32272384262254_4_alg».proof.Proof.KTail
import proofs.«423393_j32272384262254_4_alg».proof.Proof.RTail
import proofs.«423393_j32272384262254_4_alg».proof.Proof.Chunks
import Idealize.ShloMosaic.Lib.Pipeline.Value
import Idealize.ShloMosaic.Lib.ValueIdx
import Idealize.ShloMosaic.PureOps.Ideal.Laws

noncomputable section

namespace Cert.Proof.TailBridge

open Idealize.ShloMosaic Idealize.ShloMosaic.ValueIdx

section Kernel

open Cert.KernelIdeal Cert.KernelIdeal.Gen

/-- The sum over the two halves of a [2, 1, 256] array, from zero, at `(a, j)`. -/
theorem sumHalves_row (S : FVec Ideal S2x1x256 .f32) (a : Fin 1) (j : Fin 256) :
    Host.reduceAdd S (constant (F := Ideal) S_ .f32 0x00000000#32) reducesTo_S2x1x256_S1x256_d0 h_S_ (ix2 a j)
      = S (ix3 0 a j) + S (ix3 1 a j) := by
  simp only [Host.reduceAdd, Ideal.hostReduceAdd_def]
  rw [Ideal.hostReduceAdd_single reducesTo_S2x1x256_S1x256_d0 (by decide)]
  refine (congrArg₂ (· + ·) Ideal.ofBits_zero_f32 (Fin.sum_univ_two _)).trans ?_
  rw [zero_add]
  refine congrArg₂ (· + ·) (congrArg S ?_) (congrArg S ?_)
  · exact funext fun c => Fin.ext (by match c with | ⟨0, _⟩ => rfl | ⟨1, _⟩ => rfl | ⟨2, _⟩ => rfl)
  · exact funext fun c => Fin.ext (by match c with | ⟨0, _⟩ => rfl | ⟨1, _⟩ => rfl | ⟨2, _⟩ => rfl)

/-- The sum over the two halves of a [2, 256, 256] array, from zero, at `(i, j)`. -/
theorem sumHalves_mat (M : FVec Ideal S2x256x256 .f32) (i j : Fin 256) :
    Host.reduceAdd M (constant (F := Ideal) S_ .f32 0x00000000#32) reducesTo_S2x256x256_S256x256_d0 h_S_ (ix2 i j)
      = M (ix3 0 i j) + M (ix3 1 i j) := by
  simp only [Host.reduceAdd, Ideal.hostReduceAdd_def]
  rw [Ideal.hostReduceAdd_single reducesTo_S2x256x256_S256x256_d0 (by decide)]
  refine (congrArg₂ (· + ·) Ideal.ofBits_zero_f32 (Fin.sum_univ_two _)).trans ?_
  rw [zero_add]
  refine congrArg₂ (· + ·) (congrArg M ?_) (congrArg M ?_)
  · exact funext fun c => Fin.ext (by match c with | ⟨0, _⟩ => rfl | ⟨1, _⟩ => rfl | ⟨2, _⟩ => rfl)
  · exact funext fun c => Fin.ext (by match c with | ⟨0, _⟩ => rfl | ⟨1, _⟩ => rfl | ⟨2, _⟩ => rfl)

/-- A column [256, 1] broadcast along the rows, read at `(i, j)`. -/
theorem bcastCol_apply (y : FVec Ideal S256x1 .f32) (i j : Fin 256) :
    broadcastInDim S256x256 ![0, 1] bcast_S256x1_S256x256_0_1 y (ix2 i j) = y (ix2 i 0) :=
  broadcastInDim_apply _ bcast_S256x1_S256x256_0_1 y (ix2 i j) (ix2 i 0) (fun a => match a with
    | ⟨0, _⟩ => by show i.val = if (256 : Nat) = 1 then 0 else i.val; rw [if_neg (by decide)]
    | ⟨1, _⟩ => by show 0 = if (1 : Nat) = 1 then 0 else j.val; rw [if_pos rfl])

/-- A row [1, 256] broadcast along the columns, read at `(i, j)`. -/
theorem bcastRow_apply (y : FVec Ideal S1x256 .f32) (i j : Fin 256) :
    broadcastInDim S256x256 ![0, 1] bcast_S1x256_S256x256_0_1 y (ix2 i j) = y (ix2 0 j) :=
  broadcastInDim_apply _ bcast_S1x256_S256x256_0_1 y (ix2 i j) (ix2 0 j) (fun a => match a with
    | ⟨0, _⟩ => by show 0 = if (1 : Nat) = 1 then 0 else i.val; rw [if_pos rfl]
    | ⟨1, _⟩ => by show j.val = if (256 : Nat) = 1 then 0 else j.val; rw [if_neg (by decide)])

/-- A rank-0 value broadcast to a matrix is that value at every index. -/
theorem bcastScalar_apply (y : FVec Ideal S_ .f32) (k : S256x256.Idx) :
    broadcastInDim S256x256 ![] bcast_S_S256x256 y k = y ix0 :=
  broadcastInDim_apply _ bcast_S_S256x256 y k ix0 (fun a => a.elim0)

/-- The row [1, 256] transposed to a column [256, 1], read at `(i, 0)`. -/
theorem transposeRow_apply (y : FVec Ideal S1x256 .f32) (i : Fin 256) :
    transpose S256x1 [1, 0] y transposes_S1x256_S256x1_1_0 (ix2 i 0) = y (ix2 0 i) :=
  transpose_apply [1, 0] y transposes_S1x256_S256x1_1_0 (ix2 i 0) (ix2 0 i) (fun b => match b with
    | ⟨0, _⟩ => rfl
    | ⟨1, _⟩ => rfl)

end Kernel

/-- The kernel's squared distance at `(i, j)`: the two halves' squared norms and inner products, added. -/
theorem sqOf_apply (MM : FVec Ideal Cert.KernelIdeal.S2x256x256 .f32) (SA SB : FVec Ideal Cert.KernelIdeal.S2x1x256 .f32)
    (i j : Fin 256) :
    Cert.KernelIdeal.TailValue.sqOf MM SA SB (ix2 i j)
      = ((SA (ix3 0 0 i) + SA (ix3 1 0 i)) + (SB (ix3 0 0 j) + SB (ix3 1 0 j)))
          - Ideal.ofBits .f32 0x40000000#32 * (MM (ix3 0 i j) + MM (ix3 1 i j)) := by
  unfold Cert.KernelIdeal.TailValue.sqOf
  rw [subf_apply, addf_apply, mulf_apply, bcastCol_apply, bcastRow_apply, bcastScalar_apply, transposeRow_apply,
    sumHalves_row, sumHalves_row, sumHalves_mat]
  rfl

section Bridge

open Cert.ReferenceIdeal Cert.ReferenceIdeal.Gen

/-- A rank-0 value broadcast to a matrix is that value at every index. -/
theorem bcastScalar_apply' (y : FVec Ideal S_ .f32) (k : S256x256.Idx) :
    broadcastInDim S256x256 ![] bcast_S_S256x256 y k = y ix0 :=
  broadcastInDim_apply _ bcast_S_S256x256 y k ix0 (fun a => a.elim0)

/-- The transposed matrix read at `k` is the matrix at the swapped index. -/
theorem transposeMat_apply (d : FVec Ideal S256x256 .f32) (k : S256x256.Idx) :
    transpose S256x256 [1, 0] d transposes_S256x256_S256x256_1_0 k = d (ix2 (k 1) (k 0)) :=
  transpose_apply [1, 0] d transposes_S256x256_S256x256_1_0 k (ix2 (k 1) (k 0)) (fun b => match b with
    | ⟨0, _⟩ => rfl
    | ⟨1, _⟩ => rfl)

/-- The excess of the transposed distances is the transposed excess. -/
theorem excessOf_transpose (d : FVec Ideal S256x256 .f32) (t : FVec Ideal S_ .f32) :
    RefValue.excessOf (transpose S256x256 [1, 0] d transposes_S256x256_S256x256_1_0) t
      = transpose S256x256 [1, 0] (RefValue.excessOf d t) transposes_S256x256_S256x256_1_0 := by
  funext k
  rw [transposeMat_apply]
  unfold RefValue.excessOf
  rw [maximumf_apply, maximumf_apply, subf_apply, subf_apply, transposeMat_apply, bcastScalar_apply', bcastScalar_apply',
    bcastScalar_apply', bcastScalar_apply']

/-- The minimum down column `j`, from `init`: the fold of `min` over the rows. -/
theorem colMin_apply (e : FVec Ideal S256x256 .f32) (init : FVec Ideal S_ .f32) (j : S256.Idx) :
    Host.reduce FloatOps.minimumf e init Cert.KernelIdeal.Gen.reducesTo_S256x256_S256_d0 h_S_ j
      = (Finset.univ : Finset (Fin 256)).fold FloatOps.minimumf (init (Shape.Idx.first h_S_)) (fun k => e (ix2 k (j 0))) := by
  rw [Host.reduce_eq_fold_single FloatOps.minimumf e init Cert.KernelIdeal.Gen.reducesTo_S256x256_S256_d0 (by decide) h_S_ j]
  refine congrArg (Finset.fold _ _ · _) (funext fun k => congrArg e ?_)
  exact funext fun c => Fin.ext (by match c with | ⟨0, _⟩ => rfl | ⟨1, _⟩ => rfl)

/-- The minimum along row `i`, from `init`: the fold of `min` over the columns. -/
theorem rowMin_apply (e : FVec Ideal S256x256 .f32) (init : FVec Ideal S_ .f32) (i : S256.Idx) :
    Host.reduce FloatOps.minimumf e init reducesTo_S256x256_S256_d1 h_S_ i
      = (Finset.univ : Finset (Fin 256)).fold FloatOps.minimumf (init (Shape.Idx.first h_S_)) (fun k => e (ix2 (i 0) k)) := by
  rw [Host.reduce_eq_fold_single FloatOps.minimumf e init reducesTo_S256x256_S256_d1 (by decide) h_S_ i]
  refine congrArg (Finset.fold _ _ · _) (funext fun k => congrArg e ?_)
  exact funext fun c => Fin.ext (by match c with | ⟨0, _⟩ => rfl | ⟨1, _⟩ => rfl)

/-- The column minima of a matrix are the row minima of its transpose. -/
theorem colMin_eq_rowMin_transpose (e : FVec Ideal S256x256 .f32) (init : FVec Ideal S_ .f32) :
    Host.reduce FloatOps.minimumf e init Cert.KernelIdeal.Gen.reducesTo_S256x256_S256_d0 h_S_
      = Host.reduce FloatOps.minimumf (transpose S256x256 [1, 0] e transposes_S256x256_S256x256_1_0) init
          reducesTo_S256x256_S256_d1 h_S_ := by
  funext j
  rw [colMin_apply, rowMin_apply]
  refine congrArg (Finset.fold _ _ · _) (funext fun k => ?_)
  rw [transposeMat_apply]

end Bridge

/-- The kernel's loss and the reference's are one function of the squared distances and the tolerance. -/
theorem loss_eq (s : FVec Ideal Cert.KernelIdeal.S256x256 .f32) (t : FVec Ideal Cert.KernelIdeal.S_ .f32) :
    Cert.KernelIdeal.TailValue.loss s t = Cert.ReferenceIdeal.RefValue.loss s t := by
  unfold Cert.KernelIdeal.TailValue.loss Cert.ReferenceIdeal.RefValue.loss Cert.ReferenceIdeal.RefValue.meanRowMin
  rw [excessOf_transpose, ← colMin_eq_rowMin_transpose]
  rfl

end Cert.Proof.TailBridge

end
-- ==== Proof.Bridge.lean ====
/-
  The kernel's squared distances are the reference's: at `(i, j)` both are `|X i|² + |Y j|² - 2 * (X i · Y j)`, the
  kernel's three sums each split into the two halves of the coordinates.
-/
import proofs.«423393_j32272384262254_4_alg».proof.Proof.Finals
import proofs.«423393_j32272384262254_4_alg».proof.Proof.TailBridge
import proofs.«423393_j32272384262254_4_alg».proof.Proof.RefSide

noncomputable section

namespace Cert.Proof.Bridge

open Idealize.ShloMosaic Idealize.ShloMosaic.TcCoe Idealize.SL.Sem Idealize.ShloMosaic.ValueIdx
open Cert.Proof.Chunks

/-- The kernel's matrix of squared distances, from its three result arrays, is the reference's matrix of the
    same two arrays of points. -/
theorem sq_eq (m : (ℓ : Loc Cert.KernelIdeal.nD Cert.KernelIdeal.τ Cert.KernelIdeal.sig) → Buf (Elt Ideal) ℓ) (c : Dev Cert.KernelIdeal.nD) :
    Cert.KernelIdeal.TailValue.sqOf (Cert.KernelIdeal.Acc.mmArr m c) (Cert.KernelIdeal.Acc.sqaArr m c) (Cert.KernelIdeal.Acc.sqbArr m c)
      = Cert.ReferenceIdeal.Read.val_main_v14 (F := Ideal) (Cert.KernelIdeal.Acc.ptsA m c) (Cert.KernelIdeal.Acc.ptsB m c) := by
  funext y
  obtain ⟨i, j, rfl⟩ : ∃ (i j : Fin 256), y = ix2 i j := ⟨y 0, y 1, eq_ix2 y⟩
  rw [Cert.Proof.TailBridge.sqOf_apply]
  refine Eq.trans ?_ (Cert.ReferenceIdeal.RefValue.sq_apply (Cert.KernelIdeal.Acc.ptsA m c) (Cert.KernelIdeal.Acc.ptsB m c) i j).symm
  rw [dot_eq_halves, dot_eq_halves, dot_eq_halves]
  rfl

end Cert.Proof.Bridge

end
-- ==== Proof.lean ====
/-
  A pairwise-distance loss: 256 points `X i` and 256 points `Y j` of 65536 coordinates, the squared distances
  `|X i|² + |Y j|² - 2 (X i · Y j)`, their square roots where positive, the excess over a tolerance clamped at zero,
  and the mean of the row minima plus the mean of the column minima.

  The kernel computes the three sums over the coordinates in a region of eight grid points — one chunk of 8192
  coordinates per point, four chunks accumulated into each of two result blocks — splitting every factor into
  its bf16 part and a remainder and adding the three products `a b + a (b - b') + (a - a') b`; the idealized
  kernel reads the bf16 part as the factor itself (the two rewrites `preserves` states), so over real entries
  the remainders vanish and each block holds half of each sum. The host lines after the region add the two
  halves and finish as the reference does, except that the reference takes the column minima as row minima of the
  transposed matrix. So both results are one function of the arguments:

  * the region's result arrays: Pieces, Payload, Accum, Finals (over Chunks' arithmetic);
  * the kernel's host lines as a function of those arrays: KTail, KernelRun;
  * the reference's run as the same loss of its squared distances: RTail, RefSide;
  * the two agree: TailBridge (the host lines), Bridge (the squared distances);
  * the entries are real numbers under the precondition: Finite.
-/
import proofs.«423393_j32272384262254_4_alg».proof.Defs
import proofs.«423393_j32272384262254_4_alg».proof.Proof.Gen.Kernel
import proofs.«423393_j32272384262254_4_alg».proof.Proof.Gen.Kernel.Frame
import proofs.«423393_j32272384262254_4_alg».proof.Proof.Gen.KernelIdeal
import proofs.«423393_j32272384262254_4_alg».proof.Proof.Gen.KernelIdeal.Frame
import proofs.«423393_j32272384262254_4_alg».proof.Proof.Gen.ReferenceIdeal
import proofs.«423393_j32272384262254_4_alg».proof.Proof.Gen.ReferenceIdeal.Run
import proofs.«423393_j32272384262254_4_alg».proof.Proof.Gen.Pre_finite_inputs
import proofs.«423393_j32272384262254_4_alg».proof.Proof.Finite
import proofs.«423393_j32272384262254_4_alg».proof.Proof.KernelRun
import proofs.«423393_j32272384262254_4_alg».proof.Proof.RefSide
import proofs.«423393_j32272384262254_4_alg».proof.Proof.TailBridge
import proofs.«423393_j32272384262254_4_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two rewrites the idealized kernel is printed with: widening a block narrowed to bf16 gives the block back, over the reals. -/
theorem preserves : Cert.preserves_Kernel_KernelIdeal :=
  ⟨IdealRules.truncf_extf.statement Cert.KernelIdeal.S256x8192 .f32 .bf16,
    IdealRules.truncf_extf.statement Cert.KernelIdeal.S256x8192 .f32 .bf16⟩

/-- Both programs end at the loss of the squared distances of the two arrays of points. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.TailValue.loss
      (Cert.KernelIdeal.TailValue.sqOf (Cert.KernelIdeal.Acc.mmArr m c) (Cert.KernelIdeal.Acc.sqaArr m c) (Cert.KernelIdeal.Acc.sqbArr m c))
      (sitofp .f32 (m ((c.tc : Thread Cert.KernelIdeal.nD Cert.KernelIdeal.τ).loc Cert.KernelIdeal.main_arg2))),
    Cert.KernelIdeal.KRun.run m ρ (fun c => Cert.Proof.Finite.of_pre m hpre c), ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.RefValue.res_eq, (hagree c).1, (hagree c).2.1, (hagree c).2.2,
    Cert.Proof.Bridge.sq_eq m c, Cert.Proof.TailBridge.loss_eq]
  have eA : Cert.KernelIdeal.Acc.ptsA m c = m ((c.tc : Thread Cert.KernelIdeal.nD Cert.KernelIdeal.τ).loc Cert.KernelIdeal.main_arg0) := Cert.KernelIdeal.Gen.V_main_arg0 m c
  have eB : Cert.KernelIdeal.Acc.ptsB m c = m ((c.tc : Thread Cert.KernelIdeal.nD Cert.KernelIdeal.τ).loc Cert.KernelIdeal.main_arg1) := Cert.KernelIdeal.Gen.V_main_arg1 m c
  rw [eA, eB]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
